-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S4x4000000 : Shape := ⟨2, ![4, 4000000]⟩
abbrev S3x4000000 : Shape := ⟨2, ![3, 4000000]⟩
abbrev S9x4000000 : Shape := ⟨2, ![9, 4000000]⟩
abbrev S4x16000 : Shape := ⟨2, ![4, 16000]⟩
abbrev S3x16000 : Shape := ⟨2, ![3, 16000]⟩
abbrev S9x16000 : Shape := ⟨2, ![9, 16000]⟩
abbrev S1x16000 : Shape := ⟨2, ![1, 16000]⟩
abbrev S4000000x9 : Shape := ⟨2, ![4000000, 9]⟩
abbrev S4000000x3x3 : Shape := ⟨3, ![4000000, 3, 3]⟩

abbrev nBuf : Space → Nat
  | .hbm => 7
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4x4000000, .f32⟩
  | .hbm, ⟨3, _⟩ => ⟨S3x4000000, .f32⟩
  | .hbm, ⟨4, _⟩ => ⟨S9x4000000, .f32⟩
  | .hbm, ⟨5, _⟩ => ⟨S4000000x9, .f32⟩
  | .hbm, ⟨6, _⟩ => ⟨S4000000x3x3, .f32⟩
  | .local _ .vmem, ⟨0, _⟩ => ⟨S4x16000, .f32⟩
  | .local _ .vmem, ⟨1, _⟩ => ⟨S4x16000, .f32⟩
  | .local _ .vmem, ⟨2, _⟩ => ⟨S3x16000, .f32⟩
  | .local _ .vmem, ⟨3, _⟩ => ⟨S3x16000, .f32⟩
  | .local _ .vmem, ⟨4, _⟩ => ⟨S9x16000, .f32⟩
  | .local _ .vmem, ⟨5, _⟩ => ⟨S9x16000, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x4_S4x4000000_1_0 : S4000000x4.Transposes [1, 0] S4x4000000
  transposes_S4000000x3_S3x4000000_1_0 : S4000000x3.Transposes [1, 0] S3x4000000
  inb_S4x16000_S4x16000_0_0 : ∀ a, (![0, 0] : Fin 2 → Nat) a + S4x16000.size a ≤ S4x16000.size a
  h_S4x16000 : 0 < S4x16000.numel
  shapeCasts_S4x16000_S4x16000 : S4x16000.ShapeCasts S4x16000
  slices_S4x16000_o0_0_S1x16000 : S4x16000.Slices ![0, 0] S1x16000
  slices_S4x16000_o1_0_S1x16000 : S4x16000.Slices ![1, 0] S1x16000
  slices_S4x16000_o2_0_S1x16000 : S4x16000.Slices ![2, 0] S1x16000
  slices_S4x16000_o3_0_S1x16000 : S4x16000.Slices ![3, 0] S1x16000
  inb_S3x16000_S3x16000_0_0 : ∀ a, (![0, 0] : Fin 2 → Nat) a + S3x16000.size a ≤ S3x16000.size a
  h_S3x16000 : 0 < S3x16000.numel
  shapeCasts_S3x16000_S3x16000 : S3x16000.ShapeCasts S3x16000
  slices_S3x16000_o0_0_S1x16000 : S3x16000.Slices ![0, 0] S1x16000
  slices_S3x16000_o1_0_S1x16000 : S3x16000.Slices ![1, 0] S1x16000
  slices_S3x16000_o2_0_S1x16000 : S3x16000.Slices ![2, 0] S1x16000
  concatenates_S1x16000_S1x16000_S1x16000_S1x16000_S1x16000_S1x16000_S1x16000_S1x16000_S1x16000_S9x16000_d0 : Shape.Concatenates [S1x16000, S1x16000, S1x16000, S1x16000, S1x16000, S1x16000, S1x16000, S1x16000, S1x16000] S9x16000 0
  inb_S9x16000_S9x16000_0_0 : ∀ a, (![0, 0] : Fin 2 → Nat) a + S9x16000.size a ≤ S9x16000.size a
  h_S9x16000 : 0 < S9x16000.numel
  transposes_S9x4000000_S4000000x9_1_0 : S9x4000000.Transposes [1, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16000.size a ≤ S4x4000000.size a
  hwx0_0 : ∀ i : grid0.Coords, EltTy.bits .f32 = 32 ∨ (Rect.block (s := S4x4000000) S4x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x4000000.size a
  hwx0_1 : ∀ i : grid0.Coords, EltTy.bits .f32 = 32 ∨ (Rect.block (s := S3x4000000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x16000.size a ≤ S9x4000000.size a
  hwx0_2 : ∀ i : grid0.Coords, EltTy.bits .f32 = 32 ∨ (Rect.block (s := S9x4000000) S9x16000.size (cc0_transform_2 i) (hinb0_2 i)).WholeWords (EltTy.packing .f32)

variable [Facts₀]

abbrev win0_0 : Pipeline.Window sig grid0 :=
  Pipeline.Window.ofSpec (Memref.whole main_v0) S4x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x16000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 87
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S_, .f32⟩
  | .hbm, ⟨47, _⟩ => ⟨S4000000, .f32⟩
  | .hbm, ⟨48, _⟩ => ⟨S4000000, .f32⟩
  | .hbm, ⟨49, _⟩ => ⟨S_, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000x1, .f32⟩
  | .hbm, ⟨72, _⟩ => ⟨S4000000x1, .f32⟩
  | .hbm, ⟨73, _⟩ => ⟨S4000000x1, .f32⟩
  | .hbm, ⟨74, _⟩ => ⟨S4000000x1, .f32⟩
  | .hbm, ⟨75, _⟩ => ⟨S4000000x1, .f32⟩
  | .hbm, ⟨76, _⟩ => ⟨S4000000x1, .f32⟩
  | .hbm, ⟨77, _⟩ => ⟨S4000000x1, .f32⟩
  | .hbm, ⟨78, _⟩ => ⟨S4000000x1, .f32⟩
  | .hbm, ⟨79, _⟩ => ⟨S4000000x1, .f32⟩
  | .hbm, ⟨80, _⟩ => ⟨S4000000x9, .f32⟩
  | .hbm, ⟨81, _⟩ => ⟨S4000000x3x3, .f32⟩
  | .hbm, ⟨82, _⟩ => ⟨S4000000x3, .f32⟩
  | .hbm, ⟨83, _⟩ => ⟨S4000000x1x3, .f32⟩
  | .hbm, ⟨84, _⟩ => ⟨S4000000x3x3, .f32⟩
  | .hbm, ⟨85, _⟩ => ⟨S4000000x3x3, .f32⟩
  | .hbm, ⟨86, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Covariance.lean ====
/-
  The mathematics of one Gaussian, as both programs compute it over the extended reals.

  A quaternion q = (w, x, y, z) is scaled to unit length, the unit quaternion gives the 3×3 rotation matrix R
  (row-major, nine entries), the log-scales s give the squared scales, and the covariance is
      Σ = (R · diag eˢ) (R · diag eˢ)ᵀ,      Σ_ik = ∑_j R_ij R_kj e^{2 s_j}.
  The two programs differ in two places only. The kernel scales q by the reciprocal square root of |q|² and
  multiplies R_ij R_kj by e^{2 s_j}; the reference divides q by the square root of |q|² and sums the products
  (R_ij e^{s_j}) (R_kj e^{s_j}). The nine rotation entries are one expression tree in both.
  For a quaternion of real entries with |q|² > 0 the two scalings are the same real number, and
  (a e)(b e) = (a b)(e e) with e^s e^s = e^{2s} on every extended real, so the two covariances are equal.
  At |q|² = 0 they are not (0 · rsqrt 0 = 0 · ⊤ = 0, but 0 / sqrt 0 = 0 / 0 = ⊥): that is what the
  positivity hypothesis is for.
-/
import Idealize.ShloMosaic.PureOps.Ideal
import Idealize.ShloMosaic.Lib.ValueIdx

noncomputable section

namespace Cert.Covariance

open Idealize.ShloMosaic Idealize.ShloMosaic.ValueIdx

/-- The three float literals the programs carry: 2, 1 and 0. -/
abbrev two : EReal := Ideal.ofBits .f32 0x40000000#32
abbrev one : EReal := Ideal.ofBits .f32 0x3F800000#32
abbrev zero : EReal := Ideal.ofBits .f32 0x00000000#32

/-- Entry (i, j) of a 3×3 matrix stored row-major in nine places. -/
abbrev flat (i j : Fin 3) : Fin 9 := ⟨3 * i.val + j.val, by omega⟩

/-- The rotation matrix of the quaternion (w, x, y, z), row-major. -/
def rot (w x y z : EReal) : Fin 9 → EReal :=
  ![one - two * (y * y + z * z), two * (x * y - w * z), two * (x * z + w * y),
    two * (x * y + w * z), one - two * (x * x + z * z), two * (y * z - w * x),
    two * (x * z - w * y), two * (y * z + w * x), one - two * (x * x + y * y)]

/-- Σ_ik from the rotation entries and the SQUARED scales: the kernel's form. -/
def cov (R : Fin 9 → EReal) (E : Fin 3 → EReal) (i k : Fin 3) : EReal :=
  R (flat i 0) * R (flat k 0) * E 0 + R (flat i 1) * R (flat k 1) * E 1 + R (flat i 2) * R (flat k 2) * E 2

/-- Σ_ik from the rotation entries and the scales: the reference's form, the sum over j of the scaled products. -/
def covSum (R : Fin 9 → EReal) (e : Fin 3 → EReal) (i k : Fin 3) : EReal :=
  ∑ j : Fin 3, (R (flat i j) * e j) * (R (flat k j) * e j)

/-- The squared length of a quaternion, the kernel's association. -/
def len2 (q : Fin 4 → EReal) : EReal := q 0 * q 0 + q 1 * q 1 + q 2 * q 2 + q 3 * q 3

/-- The kernel's unit quaternion: times the reciprocal square root of the squared length. -/
def unitK (q : Fin 4 → EReal) (k : Fin 4) : EReal := q k * Ideal.rsqrt (len2 q)

/-- The reference's unit quaternion: divided by the square root of the squared length, summed from zero. -/
def unitR (q : Fin 4 → EReal) (k : Fin 4) : EReal := Ideal.div (q k) (Ideal.sqrt (zero + ∑ k' : Fin 4, q k' * q k'))

/-- One Gaussian's covariance, the kernel's way. -/
def sigmaK (q : Fin 4 → EReal) (s : Fin 3 → EReal) (i k : Fin 3) : EReal :=
  cov (rot (unitK q 0) (unitK q 1) (unitK q 2) (unitK q 3)) (fun j => Ideal.exp (two * s j)) i k

/-- One Gaussian's covariance, the reference's way. -/
def sigmaR (q : Fin 4 → EReal) (s : Fin 3 → EReal) (i k : Fin 3) : EReal :=
  covSum (rot (unitR q 0) (unitR q 1) (unitR q 2) (unitR q 3)) (fun j => Ideal.exp (s j)) i k

/-! ## The two joins -/

/-- The literal 2.0 is the real number 2, and the literal 0.0 is 0. -/
theorem two_eq : two = ((2 : ℝ) : EReal) := by
  simp [two, Ideal.ofBits, Ideal.ieee, -EReal.coe_mul]; norm_num

theorem zero_eq : zero = 0 := by
  simp [zero, Ideal.ofBits, Ideal.ieee]

/-- e^{2s} = e^s · e^s on every extended real (at ±∞ both sides are ⊤, or 0). -/
theorem exp_two_mul (s : EReal) : Ideal.exp (two * s) = Ideal.exp s * Ideal.exp s := by
  rw [two_eq]
  induction s using EReal.rec with
  | bot => rw [EReal.coe_mul_bot_of_pos (by norm_num)]; simp
  | coe r => rw [← EReal.coe_mul, Ideal.exp_coe, Ideal.exp_coe, ← EReal.coe_mul, two_mul, Real.exp_add]
  | top => rw [EReal.coe_mul_top_of_pos (by norm_num)]; simp

/-- The two forms of Σ_ik agree when the squared scales are the scales' squares: products commute and associate
    on the extended reals, and no distributivity is needed. -/
theorem covSum_eq_cov (R : Fin 9 → EReal) (e E : Fin 3 → EReal) (hE : ∀ j, E j = e j * e j) (i k : Fin 3) :
    covSum R e i k = cov R E i k := by
  unfold covSum cov
  rw [Fin.sum_univ_three, hE 0, hE 1, hE 2,
    mul_mul_mul_comm (R (flat i 0)) (e 0), mul_mul_mul_comm (R (flat i 1)) (e 1), mul_mul_mul_comm (R (flat i 2)) (e 2)]

/-- For a quaternion of real entries with positive squared length the two scalings are one real number. -/
theorem unitR_eq_unitK (q : Fin 4 → EReal) (hq : ∀ k, ∃ r : ℝ, q k = (r : EReal))
    (hpos : (0 : EReal) < ∑ k : Fin 4, q k * q k) (k : Fin 4) : unitR q k = unitK q k := by
  obtain ⟨a, ha⟩ := hq 0; obtain ⟨b, hb⟩ := hq 1; obtain ⟨c, hc⟩ := hq 2; obtain ⟨d, hd⟩ := hq 3
  -- the squared length is one real number T > 0, whichever way it is summed
  have hsum : ∑ k' : Fin 4, q k' * q k' = ((a * a + b * b + c * c + d * d : ℝ) : EReal) := by
    rw [Fin.sum_univ_four, ha, hb, hc, hd]; norm_cast
  have hT : 0 < a * a + b * b + c * c + d * d := by
    rw [hsum] at hpos; exact_mod_cast hpos
  have hs : Real.sqrt (a * a + b * b + c * c + d * d) ≠ 0 := (Real.sqrt_pos.2 hT).ne'
  have hlen : len2 q = ((a * a + b * b + c * c + d * d : ℝ) : EReal) := by
    unfold len2; rw [ha, hb, hc, hd]; norm_cast
  -- so q / √T and q · (√T)⁻¹ are the same product
  unfold unitR unitK
  rw [hsum, hlen, zero_eq, zero_add, Ideal.sqrt_coe, if_neg (not_lt.2 hT.le), Ideal.div_coe hs,
    Ideal.rsqrt_coe, if_neg (not_lt.2 hT.le), if_neg hT.ne', one_div]

/-- One Gaussian: the reference's covariance is the kernel's, for a real quaternion of positive squared length. -/
theorem sigmaR_eq_sigmaK (q : Fin 4 → EReal) (s : Fin 3 → EReal) (hq : ∀ k, ∃ r : ℝ, q k = (r : EReal))
    (hpos : (0 : EReal) < ∑ k : Fin 4, q k * q k) (i k : Fin 3) : sigmaR q s i k = sigmaK q s i k := by
  unfold sigmaR sigmaK
  rw [unitR_eq_unitK q hq hpos 0, unitR_eq_unitK q hq hpos 1, unitR_eq_unitK q hq hpos 2, unitR_eq_unitK q hq hpos 3]
  exact covSum_eq_cov _ _ _ (fun j => exp_two_mul (s j)) i k

/-! ## The arrays -/

/-- The quaternions, the log-scales and the covariances of the four million Gaussians. -/
abbrev SQ : Shape := ⟨2, ![4000000, 4]⟩
abbrev SS : Shape := ⟨2, ![4000000, 3]⟩
abbrev SC : Shape := ⟨3, ![4000000, 3, 3]⟩

/-- Gaussian n's quaternion and log-scales, read off the arrays. -/
def quat (Q : SQ.Idx → EReal) (n : Fin 4000000) : Fin 4 → EReal := fun k => Q (ix2 n k)
def logScale (S : SS.Idx → EReal) (n : Fin 4000000) : Fin 3 → EReal := fun j => S (ix2 n j)

/-- Every covariance, the kernel's way: the function both runs end at. -/
def sigmaAll (Q : SQ.Idx → EReal) (S : SS.Idx → EReal) : SC.Idx → EReal :=
  fun j => sigmaK (quat Q (j 0)) (logScale S (j 0)) (j 1) (j 2)

/-- Every covariance, the reference's way. -/
def sigmaAllR (Q : SQ.Idx → EReal) (S : SS.Idx → EReal) : SC.Idx → EReal :=
  fun j => sigmaR (quat Q (j 0)) (logScale S (j 0)) (j 1) (j 2)

/-- The arrays agree when every quaternion entry is real and every quaternion has positive squared length. -/
theorem sigmaAllR_eq_sigmaAll (Q : SQ.Idx → EReal) (S : SS.Idx → EReal)
    (hQ : ∀ i : SQ.Idx, ∃ r : ℝ, Q i = (r : EReal))
    (hpos : ∀ n : Fin 4000000, (0 : EReal) < ∑ k : Fin 4, Q (ix2 n k) * Q (ix2 n k)) :
    sigmaAllR Q S = sigmaAll Q S :=
  funext fun j => sigmaR_eq_sigmaK _ _ (fun k => hQ (ix2 (j 0) k)) (hpos (j 0)) (j 1) (j 2)

end Cert.Covariance

end
-- ==== Proof.PreRows.lean ====
/-
  The precondition, decoded.

  The precondition is one bit: the conjunction of three "for all" statements over the arrays, each written as a
  reduction by "and" of a one-bit array from the constant 1,
      every |Q[i]| < +∞,   every |S[i]| < +∞,   every row sum 0 + ∑_k Q[n,k]·Q[n,k] > 0.
  Over the extended reals |x| is max x (-x), which is below ⊤ exactly when x is a real number (at ⊥ and at ⊤ it is ⊤);
  the bit pattern 0x7F800000 denotes ⊤ and the pattern 0 denotes 0. A conjunction of bits is 1 only when both are, and a
  reduction by "and" into one bit is 1 only when every element is; the row sum from 0 along the second axis is, at row
  n, 0 plus the sum over the four entries of the row. So the bit being 1 gives: every entry of Q is a real number, and
  every quaternion has positive squared length.
-/
import proofs.«100567_j54975581389340_1_alg».proof.Proof.Gen.Pre_finite_inputs
import Idealize.ShloMosaic.Lib.ValueIdx
import Idealize.ShloMosaic.Lib.ReduceAll
import Idealize.ShloMosaic.PureOps.Ideal.Laws

namespace Cert.PreRows

open Idealize.ShloMosaic Idealize.ShloMosaic.ValueIdx

/-- The scalar shape has one index. -/
instance scalarIdx_subsingleton : Subsingleton Cert.Pre_finite_inputs.S_.Idx := ⟨fun a b => funext fun d => d.elim0⟩

/-- The bit of a truth value is 1 exactly when it is true. -/
theorem ofBool_eq_one_iff (b : Bool) : BitVec.ofBool b = 1#1 ↔ b = true := by cases b <;> decide

/-- An extended real whose absolute value max x (-x) is below +∞ is a real number: at ⊥ and at ⊤ the maximum is ⊤. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  have hlt : max x (-x) < ⊤ := by
    simpa only [Ideal.cmp, ofBool_eq_one_iff, decide_eq_true_eq] using hx
  induction x using EReal.rec with
  | bot => exact absurd hlt (by simp)
  | top => exact absurd hlt (by simp)
  | coe r => exact ⟨r, rfl⟩

/-- "a > 0" as a bit, against the pattern of zero, is 0 < a. -/
theorem pos_of_ogt_zero (a : EReal)
    (ha : Ideal.cmp .ogt a (Ideal.ofBits .f32 0x00000000#32) = 1#1) : (0 : EReal) < a := by
  rw [Ideal.ofBits_zero_f32] at ha
  simpa only [Ideal.cmp, ofBool_eq_one_iff, decide_eq_true_eq] using ha

open Cert.Pre_finite_inputs in
/-- The sum from zero along the second axis of a [4000000 × 4] array is, at row n, the sum of the row's four entries. -/
theorem hostRowSum (y : FVec Ideal Cert.Pre_finite_inputs.S4000000x4 .f32) (n : Fin 4000000) :
    Host.reduceAdd (F := Ideal) y (constant S_ .f32 0x00000000#32) Facts.reducesTo_S4000000x4_S4000000_d1 Facts.h_S_ (ix1 n)
      = ∑ k : Fin 4, y (ix2 n k) := by
  simp only [Host.reduceAdd, Ideal.hostReduceAdd_def]
  rw [Ideal.hostReduceAdd_single Facts.reducesTo_S4000000x4_S4000000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition's bit being 1 says: every entry of Q is a real number, and every row of Q has positive squared length. -/
theorem rows_of_pre (Q : FVec Ideal Cert.Pre_finite_inputs.S4000000x4 .f32) (S : FVec Ideal Cert.Pre_finite_inputs.S4000000x3 .f32)
    (h : Cert.Pre_finite_inputs.fn (F := Ideal) Q S = fun _ => 1#1) :
    (∀ i : Cert.Pre_finite_inputs.S4000000x4.Idx, ∃ r : ℝ, Q i = (r : EReal))
    ∧ (∀ n : Fin 4000000, (0 : EReal) < ∑ k : Fin 4, Q (ix2 n k) * Q (ix2 n k)) := by
  have h0 := congrFun h ValueIdx.ix0
  dsimp only [Cert.Pre_finite_inputs.fn] at h0
  -- the conjunction of the three bits
  obtain ⟨hAB, hC⟩ := IntOp.andi_eq_one.1 h0
  obtain ⟨hA, -⟩ := IntOp.andi_eq_one.1 hAB
  refine ⟨fun i => ?_, fun n => ?_⟩
  · -- |Q i| < +∞ at every index
    have hi := Host.reduce_andi_all _ _ _ _ _ hA i
    exact real_of_abs_lt_inf (Q i) hi
  · -- the row sum of squares is above zero at every row
    have hn := Host.reduce_andi_all _ _ _ _ _ hC (ix1 n)
    rw [cmpf_apply, Ideal.cmpf_def, hostRowSum] at hn
    exact pos_of_ogt_zero _ hn

end Cert.PreRows
-- ==== Proof.KernelBlock.lean ====
/-
  What one grid step of the kernel leaves in its output block, entry by entry.

  A step loads a 4 × 16000 block of quaternions (one Gaussian per column, the components w, x, y, z down the rows) and a
  3 × 16000 block of log-scales, and stores a 9 × 16000 block: row 3 i + k, column l holds Σ_ik of the Gaussian in
  column l. Every operation of the body acts column by column, so the stored entry is the per-Gaussian function
  `sigmaK` of column l of the two loaded blocks. The six distinct sums the body forms are Σ_00, Σ_01, Σ_02, Σ_11, Σ_12, Σ_22;
  rows 3, 6 and 7 repeat rows 1, 2 and 5, which is Σ's symmetry: R_0j R_1j = R_1j R_0j.
-/
import proofs.«100567_j54975581389340_1_alg».proof.Proof.Gen.KernelIdeal.Frame
import proofs.«100567_j54975581389340_1_alg».proof.Proof.Covariance
import Idealize.ShloMosaic.Lib.Pipeline.Value
import Idealize.ShloMosaic.Lib.ValueIdx

noncomputable section

namespace Cert.KernelBlock

open Idealize.ShloMosaic Idealize.ShloMosaic.ValueIdx Cert.KernelIdeal Cert.KernelIdeal.Gen Cert.Covariance

/-- Column l of a loaded quaternion block, and of a loaded log-scale block. -/
abbrev qcol (x : Vec Ideal S4x16000 .f32) (l : Fin 16000) : Fin 4 → EReal := fun a => x (ix2 a l)
abbrev scol (x : Vec Ideal S3x16000 .f32) (l : Fin 16000) : Fin 3 → EReal := fun j => x (ix2 j l)

/-- The unit quaternion of column l, and its rotation matrix. -/
abbrev ucol (x : Vec Ideal S4x16000 .f32) (l : Fin 16000) : Fin 4 → EReal := unitK (qcol x l)
abbrev rcol (x : Vec Ideal S4x16000 .f32) (l : Fin 16000) : Fin 9 → EReal :=
  rot (ucol x l 0) (ucol x l 1) (ucol x l 2) (ucol x l 3)
/-- The squared scales of column l. -/
abbrev ecol (x : Vec Ideal S3x16000 .f32) (l : Fin 16000) : Fin 3 → EReal := fun j => Ideal.exp (two * scol x l j)

theorem hz2 : (![0, 0] : Fin 2 → Nat) = fun _ => 0 := funext fun a => by fin_cases a <;> rfl

/-! ## The rows of the loaded blocks -/

/-- Row o of a four-row block, as a one-row vector, at column l. -/
theorem qrow_at (x : Vec Ideal S4x16000 .f32) (o : Nat) (ho : o < 4) (h : S4x16000.Slices ![o, 0] S1x16000) (l : Fin 16000) :
    extractStridedSlice S1x16000 ![o, 0] (k0_pay2 x) h (ix2 0 l) = x (ix2 ⟨o, ho⟩ l) := by
  unfold k0_pay2
  rw [shapeCast_self]
  exact extractStridedSlice_apply _ _ _ _ (ix2 ⟨o, ho⟩ l) (fun a => by
    match a with
    | ⟨0, _⟩ => simp
    | ⟨1, _⟩ => simp)

theorem srow_at (x : Vec Ideal S3x16000 .f32) (o : Nat) (ho : o < 3) (h : S3x16000.Slices ![o, 0] S1x16000) (l : Fin 16000) :
    extractStridedSlice S1x16000 ![o, 0] (k0_pay30 x) h (ix2 0 l) = x (ix2 ⟨o, ho⟩ l) := by
  unfold k0_pay30
  rw [shapeCast_self]
  exact extractStridedSlice_apply _ _ _ _ (ix2 ⟨o, ho⟩ l) (fun a => by
    match a with
    | ⟨0, _⟩ => simp
    | ⟨1, _⟩ => simp)

theorem w_at (x : Vec Ideal S4x16000 .f32) (l : Fin 16000) : k0_pay3 x (ix2 0 l) = x (ix2 0 l) := by
  unfold k0_pay3; exact qrow_at x 0 (by decide) _ l
theorem x_at (x : Vec Ideal S4x16000 .f32) (l : Fin 16000) : k0_pay4 x (ix2 0 l) = x (ix2 1 l) := by
  unfold k0_pay4; exact qrow_at x 1 (by decide) _ l
theorem y_at (x : Vec Ideal S4x16000 .f32) (l : Fin 16000) : k0_pay5 x (ix2 0 l) = x (ix2 2 l) := by
  unfold k0_pay5; exact qrow_at x 2 (by decide) _ l
theorem z_at (x : Vec Ideal S4x16000 .f32) (l : Fin 16000) : k0_pay6 x (ix2 0 l) = x (ix2 3 l) := by
  unfold k0_pay6; exact qrow_at x 3 (by decide) _ l

/-! ## The unit quaternion -/

/-- The reciprocal length of column l's quaternion. -/
theorem rlen_at (x : Vec Ideal S4x16000 .f32) (l : Fin 16000) : k0_pay7 x (ix2 0 l) = Ideal.rsqrt (len2 (qcol x l)) := by
  unfold k0_pay7
  dsimp only [rsqrt, addf, mulf]
  rw [w_at, x_at, y_at, z_at]
  rfl

theorem u0_at (x : Vec Ideal S4x16000 .f32) (l : Fin 16000) : k0_pay8 x (ix2 0 l) = ucol x l 0 := by
  unfold k0_pay8; dsimp only [mulf]; rw [w_at, rlen_at]; rfl
theorem u1_at (x : Vec Ideal S4x16000 .f32) (l : Fin 16000) : k0_pay9 x (ix2 0 l) = ucol x l 1 := by
  unfold k0_pay9; dsimp only [mulf]; rw [x_at, rlen_at]; rfl
theorem u2_at (x : Vec Ideal S4x16000 .f32) (l : Fin 16000) : k0_pay10 x (ix2 0 l) = ucol x l 2 := by
  unfold k0_pay10; dsimp only [mulf]; rw [y_at, rlen_at]; rfl
theorem u3_at (x : Vec Ideal S4x16000 .f32) (l : Fin 16000) : k0_pay11 x (ix2 0 l) = ucol x l 3 := by
  unfold k0_pay11; dsimp only [mulf]; rw [z_at, rlen_at]; rfl

/-! ## The nine products and the nine rotation entries -/

theorem xx_at (x : Vec Ideal S4x16000 .f32) (l : Fin 16000) : k0_pay12 x (ix2 0 l) = ucol x l 1 * ucol x l 1 := by
  unfold k0_pay12; dsimp only [mulf]; rw [u1_at]; rfl
theorem yy_at (x : Vec Ideal S4x16000 .f32) (l : Fin 16000) : k0_pay13 x (ix2 0 l) = ucol x l 2 * ucol x l 2 := by
  unfold k0_pay13; dsimp only [mulf]; rw [u2_at]; rfl
theorem zz_at (x : Vec Ideal S4x16000 .f32) (l : Fin 16000) : k0_pay14 x (ix2 0 l) = ucol x l 3 * ucol x l 3 := by
  unfold k0_pay14; dsimp only [mulf]; rw [u3_at]; rfl
theorem xy_at (x : Vec Ideal S4x16000 .f32) (l : Fin 16000) : k0_pay15 x (ix2 0 l) = ucol x l 1 * ucol x l 2 := by
  unfold k0_pay15; dsimp only [mulf]; rw [u1_at, u2_at]; rfl
theorem xz_at (x : Vec Ideal S4x16000 .f32) (l : Fin 16000) : k0_pay16 x (ix2 0 l) = ucol x l 1 * ucol x l 3 := by
  unfold k0_pay16; dsimp only [mulf]; rw [u1_at, u3_at]; rfl
theorem yz_at (x : Vec Ideal S4x16000 .f32) (l : Fin 16000) : k0_pay17 x (ix2 0 l) = ucol x l 2 * ucol x l 3 := by
  unfold k0_pay17; dsimp only [mulf]; rw [u2_at, u3_at]; rfl
theorem wx_at (x : Vec Ideal S4x16000 .f32) (l : Fin 16000) : k0_pay18 x (ix2 0 l) = ucol x l 0 * ucol x l 1 := by
  unfold k0_pay18; dsimp only [mulf]; rw [u0_at, u1_at]; rfl
theorem wy_at (x : Vec Ideal S4x16000 .f32) (l : Fin 16000) : k0_pay19 x (ix2 0 l) = ucol x l 0 * ucol x l 2 := by
  unfold k0_pay19; dsimp only [mulf]; rw [u0_at, u2_at]; rfl
theorem wz_at (x : Vec Ideal S4x16000 .f32) (l : Fin 16000) : k0_pay20 x (ix2 0 l) = ucol x l 0 * ucol x l 3 := by
  unfold k0_pay20; dsimp only [mulf]; rw [u0_at, u3_at]; rfl

theorem r00_at (x : Vec Ideal S4x16000 .f32) (l : Fin 16000) : k0_pay21 x (ix2 0 l) = rcol x l 0 := by
  unfold k0_pay21; dsimp only [subf, mulf, addf, broadcast]; rw [yy_at, zz_at]; rfl
theorem r01_at (x : Vec Ideal S4x16000 .f32) (l : Fin 16000) : k0_pay22 x (ix2 0 l) = rcol x l 1 := by
  unfold k0_pay22; dsimp only [subf, mulf, addf, broadcast]; rw [xy_at, wz_at]; rfl
theorem r02_at (x : Vec Ideal S4x16000 .f32) (l : Fin 16000) : k0_pay23 x (ix2 0 l) = rcol x l 2 := by
  unfold k0_pay23; dsimp only [subf, mulf, addf, broadcast]; rw [xz_at, wy_at]; rfl
theorem r10_at (x : Vec Ideal S4x16000 .f32) (l : Fin 16000) : k0_pay24 x (ix2 0 l) = rcol x l 3 := by
  unfold k0_pay24; dsimp only [subf, mulf, addf, broadcast]; rw [xy_at, wz_at]; rfl
theorem r11_at (x : Vec Ideal S4x16000 .f32) (l : Fin 16000) : k0_pay25 x (ix2 0 l) = rcol x l 4 := by
  unfold k0_pay25; dsimp only [subf, mulf, addf, broadcast]; rw [xx_at, zz_at]; rfl
theorem r12_at (x : Vec Ideal S4x16000 .f32) (l : Fin 16000) : k0_pay26 x (ix2 0 l) = rcol x l 5 := by
  unfold k0_pay26; dsimp only [subf, mulf, addf, broadcast]; rw [yz_at, wx_at]; rfl
theorem r20_at (x : Vec Ideal S4x16000 .f32) (l : Fin 16000) :
    k0_pay27 (k0_pay16 x) (k0_pay19 x) (ix2 0 l) = rcol x l 6 := by
  unfold k0_pay27; dsimp only [subf, mulf, addf, broadcast]; rw [xz_at, wy_at]; rfl
theorem r21_at (x : Vec Ideal S4x16000 .f32) (l : Fin 16000) :
    k0_pay28 (k0_pay17 x) (k0_pay18 x) (ix2 0 l) = rcol x l 7 := by
  unfold k0_pay28; dsimp only [subf, mulf, addf, broadcast]; rw [yz_at, wx_at]; rfl
theorem r22_at (x : Vec Ideal S4x16000 .f32) (l : Fin 16000) :
    k0_pay29 (k0_pay12 x) (k0_pay13 x) (ix2 0 l) = rcol x l 8 := by
  unfold k0_pay29; dsimp only [subf, mulf, addf, broadcast]; rw [xx_at, yy_at]; rfl

/-! ## The squared scales -/

theorem e0_at (x : Vec Ideal S3x16000 .f32) (l : Fin 16000) : k0_pay31 x (ix2 0 l) = ecol x l 0 := by
  unfold k0_pay31; dsimp only [exp, mulf, broadcast]; rw [srow_at x 0 (by decide)]; rfl
theorem e1_at (x : Vec Ideal S3x16000 .f32) (l : Fin 16000) : k0_pay32 x (ix2 0 l) = ecol x l 1 := by
  unfold k0_pay32; dsimp only [exp, mulf, broadcast]; rw [srow_at x 1 (by decide)]; rfl
theorem e2_at (x : Vec Ideal S3x16000 .f32) (l : Fin 16000) : k0_pay33 x (ix2 0 l) = ecol x l 2 := by
  unfold k0_pay33; dsimp only [exp, mulf, broadcast]; rw [srow_at x 2 (by decide)]; rfl

/-! ## The six sums -/

/-- Σ_00-shaped sum: the squares of one rotation row against the squared scales. -/
theorem sq_at (a b c : FVec Ideal S1x16000 .f32) (y : Vec Ideal S3x16000 .f32) (l : Fin 16000) :
    k0_pay34 a b c y (ix2 0 l)
      = a (ix2 0 l) * a (ix2 0 l) * ecol y l 0 + b (ix2 0 l) * b (ix2 0 l) * ecol y l 1 + c (ix2 0 l) * c (ix2 0 l) * ecol y l 2 := by
  unfold k0_pay34; dsimp only [addf, mulf]; rw [e0_at, e1_at, e2_at]; rfl

/-- Σ_01-shaped sum: two rotation rows against the squared scales. -/
theorem cross_at (a b c d e f : FVec Ideal S1x16000 .f32) (y : Vec Ideal S3x16000 .f32) (l : Fin 16000) :
    k0_pay35 a b c d e f y (ix2 0 l)
      = a (ix2 0 l) * d (ix2 0 l) * ecol y l 0 + b (ix2 0 l) * e (ix2 0 l) * ecol y l 1 + c (ix2 0 l) * f (ix2 0 l) * ecol y l 2 := by
  unfold k0_pay35; dsimp only [addf, mulf]; rw [e0_at, e1_at, e2_at]; rfl

/-- Σ_02: the first rotation row against the third, which the body forms on the way. -/
theorem cross02_at (x : Vec Ideal S4x16000 .f32) (a b c : FVec Ideal S1x16000 .f32) (y : Vec Ideal S3x16000 .f32) (l : Fin 16000) :
    k0_pay36 (k0_pay12 x) (k0_pay13 x) (k0_pay16 x) (k0_pay17 x) (k0_pay18 x) (k0_pay19 x) a b c y (ix2 0 l)
      = a (ix2 0 l) * rcol x l 6 * ecol y l 0 + b (ix2 0 l) * rcol x l 7 * ecol y l 1 + c (ix2 0 l) * rcol x l 8 * ecol y l 2 := by
  unfold k0_pay36; dsimp only [addf, mulf]; rw [e0_at, e1_at, e2_at, r20_at, r21_at, r22_at]; rfl

/-- The first term of Σ_11. -/
theorem sq0_at (a : FVec Ideal S1x16000 .f32) (y : Vec Ideal S3x16000 .f32) (l : Fin 16000) :
    k0_pay37 a y (ix2 0 l) = a (ix2 0 l) * a (ix2 0 l) * ecol y l 0 := by
  unfold k0_pay37; dsimp only [mulf]; rw [e0_at]; rfl

/-! ## The nine rows of the stored block -/

/-- Nine one-row vectors stacked: row c of the stack is the c-th vector. -/
theorem nine_rows (p0 p1 p2 p3 p4 p5 p6 p7 p8 : FVec Ideal S1x16000 .f32)
    (h : Shape.Concatenates (([⟨S1x16000, p0⟩, ⟨S1x16000, p1⟩, ⟨S1x16000, p2⟩, ⟨S1x16000, p3⟩, ⟨S1x16000, p4⟩, ⟨S1x16000, p5⟩,
      ⟨S1x16000, p6⟩, ⟨S1x16000, p7⟩, ⟨S1x16000, p8⟩] : List ((s : Shape) × (s.Idx → Ideal .f32))).map (·.1)) S9x16000 0)
    (c : Fin 9) (l : Fin 16000) :
    concatenate S9x16000 0 [⟨S1x16000, p0⟩, ⟨S1x16000, p1⟩, ⟨S1x16000, p2⟩, ⟨S1x16000, p3⟩, ⟨S1x16000, p4⟩, ⟨S1x16000, p5⟩,
      ⟨S1x16000, p6⟩, ⟨S1x16000, p7⟩, ⟨S1x16000, p8⟩] h (ix2 c l) = (![p0, p1, p2, p3, p4, p5, p6, p7, p8] c) (ix2 0 l) := by
  have hi : ∀ (c : Fin 9) (b : Fin S1x16000.rank), b.cast (rfl : S1x16000.rank = S9x16000.rank) ≠ (0 : Fin S9x16000.rank) →
      ((ix2 (0 : Fin 1) l) b).val = ((ix2 c l) (b.cast rfl)).val := fun c b hb => by
    match b with
    | ⟨0, _⟩ => exact absurd rfl hb
    | ⟨1, _⟩ => rfl
  fin_cases c
  · exact concatenate_apply_piece 0 _ h _ 0 (by simp) S1x16000 p0 rfl rfl 0 rfl (ix2 0 l) (hi _) rfl
  · exact concatenate_apply_piece 0 _ h _ 1 (by simp) S1x16000 p1 rfl rfl 1 rfl (ix2 0 l) (hi _) rfl
  · exact concatenate_apply_piece 0 _ h _ 2 (by simp) S1x16000 p2 rfl rfl 2 rfl (ix2 0 l) (hi _) rfl
  · exact concatenate_apply_piece 0 _ h _ 3 (by simp) S1x16000 p3 rfl rfl 3 rfl (ix2 0 l) (hi _) rfl
  · exact concatenate_apply_piece 0 _ h _ 4 (by simp) S1x16000 p4 rfl rfl 4 rfl (ix2 0 l) (hi _) rfl
  · exact concatenate_apply_piece 0 _ h _ 5 (by simp) S1x16000 p5 rfl rfl 5 rfl (ix2 0 l) (hi _) rfl
  · exact concatenate_apply_piece 0 _ h _ 6 (by simp) S1x16000 p6 rfl rfl 6 rfl (ix2 0 l) (hi _) rfl
  · exact concatenate_apply_piece 0 _ h _ 7 (by simp) S1x16000 p7 rfl rfl 7 rfl (ix2 0 l) (hi _) rfl
  · exact concatenate_apply_piece 0 _ h _ 8 (by simp) S1x16000 p8 rfl rfl 8 rfl (ix2 0 l) (hi _) rfl

/-- Σ is symmetric: products of rotation entries commute. -/
theorem sigmaK_symm (q : Fin 4 → EReal) (s : Fin 3 → EReal) (i k : Fin 3) : sigmaK q s i k = sigmaK q s k i := by
  unfold sigmaK cov
  rw [mul_comm (rot _ _ _ _ (flat i 0)), mul_comm (rot _ _ _ _ (flat i 1)), mul_comm (rot _ _ _ _ (flat i 2))]

/-- THE STORED BLOCK: row 3 i + k, column l is Σ_ik of the Gaussian in column l of the loaded blocks. -/
theorem out_at (x : Vec Ideal S4x16000 .f32) (y : Vec Ideal S3x16000 .f32) (i k : Fin 3) (l : Fin 16000) :
    out0_2 x y (ix2 (flat i k) l) = sigmaK (qcol x l) (scol y l) i k := by
  unfold out0_2
  rw [View.canon_unit_zero hz2]
  simp only [View.ld_unit_zero (S := S4x16000) hz2, View.ld_unit_zero (S := S3x16000) hz2]
  unfold k0_pay1
  refine (nine_rows _ _ _ _ _ _ _ _ _ _ (flat i k) l).trans ?_
  fin_cases i <;> fin_cases k
  · show k0_pay34 _ _ _ _ (ix2 0 l) = _
    rw [sq_at, r00_at, r01_at, r02_at]; rfl
  · show k0_pay35 _ _ _ _ _ _ _ (ix2 0 l) = _
    rw [cross_at, r00_at, r01_at, r02_at, r10_at, r11_at, r12_at]; rfl
  · show k0_pay36 _ _ _ _ _ _ _ _ _ _ (ix2 0 l) = _
    rw [cross02_at, r00_at, r01_at, r02_at]; rfl
  · show k0_pay35 _ _ _ _ _ _ _ (ix2 0 l) = _
    rw [sigmaK_symm, cross_at, r00_at, r01_at, r02_at, r10_at, r11_at, r12_at]; rfl
  · show addf (addf (k0_pay37 _ _) _) _ (ix2 0 l) = _
    dsimp only [addf, mulf]
    rw [sq0_at, r10_at, r11_at, r12_at, e1_at, e2_at]; rfl
  · show addf (addf (mulf _ _) _) _ (ix2 0 l) = _
    dsimp only [addf, mulf]
    rw [r10_at, r11_at, r12_at, r20_at, r21_at, r22_at, e0_at, e1_at, e2_at]; rfl
  · show k0_pay36 _ _ _ _ _ _ _ _ _ _ (ix2 0 l) = _
    rw [sigmaK_symm, cross02_at, r00_at, r01_at, r02_at]; rfl
  · show addf (addf (mulf _ _) _) _ (ix2 0 l) = _
    dsimp only [addf, mulf]
    rw [sigmaK_symm, r10_at, r11_at, r12_at, r20_at, r21_at, r22_at, e0_at, e1_at, e2_at]; rfl
  · show addf (addf (mulf _ _) _) _ (ix2 0 l) = _
    dsimp only [addf, mulf]
    rw [r20_at, r21_at, r22_at, e0_at, e1_at, e2_at]; rfl

end Cert.KernelBlock

end
-- ==== Proof.KernelArray.lean ====
/-
  From blocks to arrays.

  The kernel works on the transposed arrays: quaternions as a 4 × 4000000 array and log-scales as 3 × 4000000, one
  Gaussian per column, and its result is 9 × 4000000, entry (i, k) of Gaussian n's covariance at row 3 i + k, column n.
  Grid step t handles columns 16000 t … 16000 t + 15999: it reads that column range of both inputs and writes that column
  range of the output, all nine rows. The 250 steps' column ranges tile the 4000000 columns, and a stored entry depends
  only on its own column, so after the last step the whole output array is the per-column function of the input arrays.
-/
import proofs.«100567_j54975581389340_1_alg».proof.Proof.KernelBlock
import Idealize.ShloMosaic.Lib.StableHlo.Run
import Idealize.ShloMosaic.Lib.ValueLayout
import Idealize.ShloMosaic.Lib.Pipeline.Value

set_option maxRecDepth 16384

noncomputable section

namespace Cert.KernelArray

open Idealize.ShloMosaic Idealize.ShloMosaic.TcCoe Idealize.ShloMosaic.ValueIdx Idealize.SL.Sem
open Cert.KernelIdeal Cert.KernelIdeal.Gen Cert.Covariance Cert.KernelBlock
open Idealize.ShloMosaic.Pipeline (Dat)

variable (m : (ℓ : Loc nD τ sig) → Buf (Elt Ideal) ℓ) (ρ : Dev nD → PrngReg)

/-- Entry (row r, column n) of the kernel's result: Σ_ik of the Gaussian in column n, where r = 3 i + k. -/
def sigmaTAt (qT : S4x4000000.Idx → EReal) (sT : S3x4000000.Idx → EReal) (r : Fin 9) (n : Fin 4000000) : EReal :=
  sigmaK (fun a => qT (ix2 a n)) (fun b => sT (ix2 b n)) ⟨r.val / 3, by omega⟩ ⟨r.val % 3, by omega⟩

/-- The kernel's result array. -/
def sigmaT (qT : S4x4000000.Idx → EReal) (sT : S3x4000000.Idx → EReal) : S9x4000000.Idx → EReal :=
  fun j => sigmaTAt qT sT (j 0) (j 1)

/-- The stored block at any index: row r of the block holds entry (r / 3, r % 3). -/
theorem out_idx (x : Vec Ideal S4x16000 .f32) (y : Vec Ideal S3x16000 .f32) (j : S9x16000.Idx) :
    out0_2 x y j = sigmaK (qcol x (j 1)) (scol y (j 1)) ⟨(j 0).val / 3, by have h : (j 0).val < 9 := (j 0).isLt; omega⟩
      ⟨(j 0).val % 3, by omega⟩ := by
  have h9 : (j 0).val < 9 := (j 0).isLt
  have e : j = ix2 (flat ⟨(j 0).val / 3, by omega⟩ ⟨(j 0).val % 3, by omega⟩) (j 1) := by
    funext a
    match a with
    | ⟨0, _⟩ => exact Fin.ext (by show (j 0).val = 3 * ((j 0).val / 3) + (j 0).val % 3; omega)
    | ⟨1, _⟩ => rfl
  exact (congrArg (out0_2 x y) e).trans (out_at x y _ _ (j 1))

/-- The printed index maps over the grid: every window's block at step t is block (0, t). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT STEP t WRITES BACK is block t of the result array as a function of the transposed inputs. -/
theorem flushed_eq (c : Dev nD) (t : Fin cfg0.N) :
    (dats m 0 c).flushed 2 t = ((cfg0.win 2).blk t).view.read (Elt Ideal) (sigmaT (V m c main_v0) (V m c main_v1)) := by
  show (cfg0.win 2).cut (grid0.coords t) ((dats m 0 c).after 2 t) = _
  rw [after0_2]
  obtain ⟨e00, e01, e10, e11, e20, e21⟩ := idx_facts t
  funext j
  show out0_2 (iblk m c 0 t) (iblk m c 1 t) j = sigmaT (V m c main_v0) (V m c main_v1) (((cfg0.win 2).blk t).view.emb j)
  refine (out_idx (iblk m c 0 t) (iblk m c 1 t) j).trans ?_
  have hj0 : (j 0).val < 9 := (j 0).isLt
  have hj1 : (j 1).val < 16000 := (j 1).isLt
  -- the block's row is the array's row, its column l is the array's column 16000 t + l
  have h0 : (((cfg0.win 2).blk t).view.emb j) 0 = j 0 := Fin.ext (by
    show win0_2.index t (0 : Fin 2) * 9 + 1 * (j 0).val = (j 0).val; omega)
  have hq : qcol (iblk m c 0 t) (j 1) = fun a => V m c main_v0 (ix2 a ((((cfg0.win 2).blk t).view.emb j) 1)) := funext fun a => by
    show V m c main_v0 (((cfg0.win 0).blk t).view.emb (ix2 a (j 1))) = _
    refine congrArg (V m c main_v0) (funext fun d => Fin.ext ?_)
    have ha : a.val < 4 := a.isLt
    match d with
    | ⟨0, _⟩ => show win0_0.index t (0 : Fin 2) * 4 + 1 * a.val = a.val; omega
    | ⟨1, _⟩ => show win0_0.index t (1 : Fin 2) * 16000 + 1 * (j 1).val = win0_2.index t (1 : Fin 2) * 16000 + 1 * (j 1).val; omega
  have hs : scol (iblk m c 1 t) (j 1) = fun b => V m c main_v1 (ix2 b ((((cfg0.win 2).blk t).view.emb j) 1)) := funext fun b => by
    show V m c main_v1 (((cfg0.win 1).blk t).view.emb (ix2 b (j 1))) = _
    refine congrArg (V m c main_v1) (funext fun d => Fin.ext ?_)
    have hb : b.val < 3 := b.isLt
    match d with
    | ⟨0, _⟩ => show win0_1.index t (0 : Fin 2) * 3 + 1 * b.val = b.val; omega
    | ⟨1, _⟩ => show win0_1.index t (1 : Fin 2) * 16000 + 1 * (j 1).val = win0_2.index t (1 : Fin 2) * 16000 + 1 * (j 1).val; omega
  show _ = sigmaTAt _ _ ((((cfg0.win 2).blk t).view.emb j) 0) ((((cfg0.win 2).blk t).view.emb j) 1)
  rw [h0, hq, hs]
  rfl

/-- An index of the result array is in step t's block iff each coordinate is in the block's range on its axis. -/
theorem mem_blk (t : Fin cfg0.N) (i : S9x4000000.Idx) :
    i ∈ ((cfg0.win 2).blk t).view.set ↔ ∀ a : Fin 2, win0_2.index t a * S9x16000.size a ≤ (i a).val ∧ (i a).val < win0_2.index t a * S9x16000.size a + S9x16000.size a := by
  show i ∈ ((View.whole main_v2).slice (win0_2.rect t)).set ↔ _
  rw [View.set_slice_whole, Rect.mem_set_unit]
  exact Iff.rfl

/-- Every index of the result array is in some step's block: column n is in step n / 16000's. -/
theorem cover (i : S9x4000000.Idx) : ∃ t : Fin cfg0.N, (cfg0.win 2).flush t = true ∧ i ∈ ((cfg0.win 2).blk t).view.set := by
  have h0 : (i 0).val < 9 := (i 0).isLt
  have h1 : (i 1).val < 4000000 := (i 1).isLt
  have hN : cfg0.N = 250 := N_0
  obtain ⟨-, -, -, -, e20, e21⟩ := idx_facts ⟨(i 1).val / 16000, by rw [hN]; omega⟩
  refine ⟨⟨(i 1).val / 16000, by rw [hN]; omega⟩, flush0_2 _, ?_⟩
  rw [mem_blk]
  intro a
  match a with
  | ⟨0, _⟩ =>
    show win0_2.index _ (0 : Fin 2) * 9 ≤ (i 0).val ∧ (i 0).val < win0_2.index _ (0 : Fin 2) * 9 + 9
    rw [e20]; omega
  | ⟨1, _⟩ =>
    show win0_2.index _ (1 : Fin 2) * 16000 ≤ (i 1).val ∧ (i 1).val < win0_2.index _ (1 : Fin 2) * 16000 + 16000
    rw [e21]; show (i 1).val / 16000 * 16000 ≤ (i 1).val ∧ (i 1).val < (i 1).val / 16000 * 16000 + 16000; omega

/-- THE RESULT ARRAY after the region: the per-column covariances of the transposed inputs. -/
theorem final (c : Dev nD) : (dats m 0 c).arrAt 2 cfg0.N = sigmaT (V m c main_v0) (V m c main_v1) :=
  (dats m 0 c).arrAt_eq_of_cover 2 (sigmaT (V m c main_v0) (V m c main_v1)) (fun t _ => flushed_eq m c t) cover

end Cert.KernelArray

end
-- ==== Proof.KernelRun.lean ====
/-
  The kernel's run, read: @main transposes the two inputs, runs the region, transposes the 9 × 4000000 result to
  4000000 × 9 and reshapes it to 4000000 × 3 × 3. Entry (n, i, k) of the final array is entry (n, 3 i + k) of the
  transposed result, which is entry (3 i + k, n) of the region's result: Σ_ik of Gaussian n, whose quaternion and
  log-scales are row n of the inputs (column n of their transposes).
-/
import proofs.«100567_j54975581389340_1_alg».proof.Proof.KernelArray

set_option maxRecDepth 16384

noncomputable section

namespace Cert.KernelRun

open Idealize.ShloMosaic Idealize.ShloMosaic.TcCoe Idealize.ShloMosaic.ValueIdx Idealize.SL.Sem
open Cert.KernelIdeal Cert.KernelIdeal.Gen Cert.Covariance Cert.KernelBlock Cert.KernelArray

variable (m : (ℓ : Loc nD τ sig) → Buf (Elt Ideal) ℓ) (ρ : Dev nD → PrngReg)

/-- The region finds the quaternions transposed: entry (a, n) is the input's entry (n, a). -/
theorem qT_at (c : Dev nD) (a : Fin 4) (n : Fin 4000000) :
    (V m c main_v0 : S4x4000000.Idx → EReal) (ix2 a n) = (m ((c : Thread nD τ).loc main_arg0) : S4000000x4.Idx → EReal) (ix2 n a) := by
  have e : (V m c main_v0 : S4x4000000.Idx → EReal)
      = transpose S4x4000000 [1, 0] (m ((c : Thread nD τ).loc main_arg0) : S4000000x4.Idx → EReal) transposes_S4000000x4_S4x4000000_1_0 := by
    show StableHlo.after hostOps0 (fun b => m (c, b)) (Proc.devRef .tc main_v0) = _
    after_results
  rw [e]
  exact transpose_ix2_apply _ _ a n

/-- And the log-scales. -/
theorem sT_at (c : Dev nD) (b : Fin 3) (n : Fin 4000000) :
    (V m c main_v1 : S3x4000000.Idx → EReal) (ix2 b n) = (m ((c : Thread nD τ).loc main_arg1) : S4000000x3.Idx → EReal) (ix2 n b) := by
  have e : (V m c main_v1 : S3x4000000.Idx → EReal)
      = transpose S3x4000000 [1, 0] (m ((c : Thread nD τ).loc main_arg1) : S4000000x3.Idx → EReal) transposes_S4000000x3_S3x4000000_1_0 := by
    show StableHlo.after hostOps0 (fun b => m (c, b)) (Proc.devRef .tc main_v1) = _
    after_results
  rw [e]
  exact transpose_ix2_apply _ _ b n

/-- THE FINAL ARRAY: what the lines after the region leave in @main's result. -/
theorem tail_eq (c : Dev nD) :
    Pipeline.afterTail₀ cfgs (dats m) 0 (V0 m) [hostOps1] c main_v4
      = sigmaAll (m ((c : Thread nD τ).loc main_arg0)) (m ((c : Thread nD τ).loc main_arg1)) := by
  unfold Pipeline.afterTail₀
  show StableHlo.after hostOps1 _ (Proc.devRef .tc main_v4) = _
  after_results
  funext (j : S4000000x3x3.Idx)
  obtain ⟨n, i, k, rfl⟩ : ∃ (n : Fin 4000000) (i k : Fin 3), j = ix3 n i k := ⟨j 0, j 1, j 2, eq_ix3 j⟩
  have hi3 : i.val < 3 := i.isLt
  have hk3 : k.val < 3 := k.isLt
  -- the region leaves the per-column covariances in its result array
  have hA : Pipeline.withArrays (cfgs 0).spec c (V0 m c) (fun w => (dats m 0 c).arrAt w (cfgs 0).N) (Proc.devRef .tc main_v2)
      = sigmaT (V m c main_v0) (V m c main_v1) :=
    (Pipeline.withArrays_arr spec0 launch0.win.arr_inj c _ _ 2).trans (final m c)
  show shapeCast S4000000x3x3 (transpose S4000000x9 [1, 0]
      (Pipeline.withArrays (cfgs 0).spec c (V0 m c) (fun w => (dats m 0 c).arrAt w (cfgs 0).N) (Proc.devRef .tc main_v2))
      transposes_S9x4000000_S4000000x9_1_0) shapeCasts_S4000000x9_S4000000x3x3 (ix3 n i k) = _
  rw [hA]
  -- entry (n, i, k) of the reshaped array is entry (n, 3 i + k) of the transposed one, entry (3 i + k, n) of the result
  refine (shapeCast_apply _ shapeCasts_S4000000x9_S4000000x3x3 (ix3 n i k) (ix2 n (flat i k)) (by
    rw [Shape.rowMajor_val_two, Shape.rowMajor_val_three]
    show n.val * 9 + (3 * i.val + k.val) = (n.val * 3 + i.val) * 3 + k.val
    omega)).trans ?_
  refine (transpose_ix2_apply (sigmaT (V m c main_v0) (V m c main_v1)) transposes_S9x4000000_S4000000x9_1_0 n (flat i k)).trans ?_
  have hi : (⟨(flat i k).val / 3, by omega⟩ : Fin 3) = i := Fin.ext (by show (3 * i.val + k.val) / 3 = i.val; omega)
  have hk : (⟨(flat i k).val % 3, by omega⟩ : Fin 3) = k := Fin.ext (by show (3 * i.val + k.val) % 3 = k.val; omega)
  have hq : (fun a => (V m c main_v0 : S4x4000000.Idx → EReal) (ix2 a n)) = quat (m ((c : Thread nD τ).loc main_arg0)) n :=
    funext fun a => qT_at m c a n
  have hs : (fun b => (V m c main_v1 : S3x4000000.Idx → EReal) (ix2 b n)) = logScale (m ((c : Thread nD τ).loc main_arg1)) n :=
    funext fun b => sT_at m c b n
  show sigmaK (fun a => (V m c main_v0 : S4x4000000.Idx → EReal) (ix2 a n)) (fun b => (V m c main_v1 : S3x4000000.Idx → EReal) (ix2 b n))
      ⟨(flat i k).val / 3, by omega⟩ ⟨(flat i k).val % 3, by omega⟩ = sigmaK _ _ i k
  rw [hq, hs, hi, hk]

/-- THE RUN: every weakly fair execution of the kernel program ends with the covariances in @main's result and the two
    inputs as they were. -/
theorem run : θ_run defs (onTc (τ := τ) (main (F := Ideal))) ⟨m, fun _ => 0, ρ⟩ (fun r => ∀ c : Dev nD,
      r.2.mem ((c.tc : Thread nD τ).loc main_v4) = sigmaAll (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelRun

end
-- ==== Proof.ReferenceValue.lean ====
/-
  The reference program read as mathematics: its result, entry by entry, is the covariance
  Σ_ik = ∑_j (R_ij e^{s_j}) (R_kj e^{s_j}) of the quaternion divided by its length.

  The layers: the quaternion array divided by its row lengths; its four columns w, x, y, z; the nine
  rotation entries as expressions in the columns; the nine columns joined along the second axis and
  reshaped to 3×3 blocks; the blocks scaled column by column by the exponentials of the log-scales;
  and the contraction of the scaled blocks with themselves over the last axis.
-/
import proofs.«100567_j54975581389340_1_alg».proof.Proof.Gen.ReferenceIdeal.Read
import proofs.«100567_j54975581389340_1_alg».proof.Proof.Covariance
import Idealize.ShloMosaic.Lib.Pipeline.Value
import Idealize.ShloMosaic.Lib.ValueIdx
import Idealize.ShloMosaic.PureOps.Ideal

noncomputable section

namespace Cert.ReferenceValue

open Idealize.ShloMosaic Idealize.ShloMosaic.ValueIdx Cert.ReferenceIdeal Cert.ReferenceIdeal.Read Cert.Covariance

/-! ## The unit quaternion -/

/-- The normalized quaternion: entry (n, k) is q_k over the square root of zero plus the sum of the squares. -/
theorem v2_at (Q : SQ.Idx → EReal) (n : Fin 4000000) (k : Fin 4) :
    val_main_v2 (F := Ideal) Q (ix2 n k) = unitR (quat Q n) k := by
  have e : ∀ k' : Fin 4, idx_main_call0_v1 (idx_main_call0_v2 (idx_main_v1 (ix2 n k))) k' = ix2 n k' := fun k' =>
    funext fun a => Fin.ext (by match a with | ⟨0, _⟩ => rfl | ⟨1, _⟩ => rfl)
  rw [val_main_v2_apply, val_main_v1_apply, val_main_v0_apply, val_main_call0_v2_apply, val_main_call0_v1_apply]
  simp only [val_main_call0_v0_apply, val_main_call0_cst_apply, e, Ideal.mulf_def, Ideal.hostDivf_def,
    Ideal.hostUnary_sqrt_def, Ideal.ofBits_def]
  rfl

/-! ## Its four columns -/

/-- Column w: entry n is entry (n, 0) of the unit quaternion. -/
theorem v4_at (Q : SQ.Idx → EReal) (n : Fin 4000000) :
    val_main_v4 (F := Ideal) Q (ix1 n) = val_main_v2 (F := Ideal) Q (ix2 n 0) := by
  have e : idx_main_v3 (idx_main_v4 (ix1 n)) = ix2 n 0 :=
    funext fun a => Fin.ext (by match a with | ⟨0, _⟩ => exact Nat.div_one _ | ⟨1, _⟩ => rfl)
  rw [val_main_v4_apply, val_main_v3_apply, e]

/-- Column x: entry n is entry (n, 1) of the unit quaternion. -/
theorem v6_at (Q : SQ.Idx → EReal) (n : Fin 4000000) :
    val_main_v6 (F := Ideal) Q (ix1 n) = val_main_v2 (F := Ideal) Q (ix2 n 1) := by
  have e : idx_main_v5 (idx_main_v6 (ix1 n)) = ix2 n 1 :=
    funext fun a => Fin.ext (by match a with | ⟨0, _⟩ => exact Nat.div_one _ | ⟨1, _⟩ => rfl)
  rw [val_main_v6_apply, val_main_v5_apply, e]

/-- Column y: entry n is entry (n, 2) of the unit quaternion. -/
theorem v8_at (Q : SQ.Idx → EReal) (n : Fin 4000000) :
    val_main_v8 (F := Ideal) Q (ix1 n) = val_main_v2 (F := Ideal) Q (ix2 n 2) := by
  have e : idx_main_v7 (idx_main_v8 (ix1 n)) = ix2 n 2 :=
    funext fun a => Fin.ext (by match a with | ⟨0, _⟩ => exact Nat.div_one _ | ⟨1, _⟩ => rfl)
  rw [val_main_v8_apply, val_main_v7_apply, e]

/-- Column z: entry n is entry (n, 3) of the unit quaternion. -/
theorem v10_at (Q : SQ.Idx → EReal) (n : Fin 4000000) :
    val_main_v10 (F := Ideal) Q (ix1 n) = val_main_v2 (F := Ideal) Q (ix2 n 3) := by
  have e : idx_main_v9 (idx_main_v10 (ix1 n)) = ix2 n 3 :=
    funext fun a => Fin.ext (by match a with | ⟨0, _⟩ => exact Nat.div_one _ | ⟨1, _⟩ => rfl)
  rw [val_main_v10_apply, val_main_v9_apply, e]

/-! ## The nine rotation entries, as expressions in w, x, y, z -/

theorem rot_0 (w x y z : EReal) : rot w x y z 0 = one - two * (y * y + z * z) := by
  simp only [rot, Matrix.cons_val]
theorem rot_1 (w x y z : EReal) : rot w x y z 1 = two * (x * y - w * z) := by
  simp only [rot, Matrix.cons_val]
theorem rot_2 (w x y z : EReal) : rot w x y z 2 = two * (x * z + w * y) := by
  simp only [rot, Matrix.cons_val]
theorem rot_3 (w x y z : EReal) : rot w x y z 3 = two * (x * y + w * z) := by
  simp only [rot, Matrix.cons_val]
theorem rot_4 (w x y z : EReal) : rot w x y z 4 = one - two * (x * x + z * z) := by
  simp only [rot, Matrix.cons_val]
theorem rot_5 (w x y z : EReal) : rot w x y z 5 = two * (y * z - w * x) := by
  simp only [rot, Matrix.cons_val]
theorem rot_6 (w x y z : EReal) : rot w x y z 6 = two * (x * z - w * y) := by
  simp only [rot, Matrix.cons_val]
theorem rot_7 (w x y z : EReal) : rot w x y z 7 = two * (y * z + w * x) := by
  simp only [rot, Matrix.cons_val]
theorem rot_8 (w x y z : EReal) : rot w x y z 8 = one - two * (x * x + y * y) := by
  simp only [rot, Matrix.cons_val]

/-! ## The nine rotation vectors, from the column buffers -/

/-- The rotation matrix of Gaussian n, from the four column buffers. -/
abbrev rotOf (Q : SQ.Idx → EReal) (n : Fin 4000000) : Fin 9 → EReal :=
  rot (val_main_v4 (F := Ideal) Q (ix1 n)) (val_main_v6 (F := Ideal) Q (ix1 n))
    (val_main_v8 (F := Ideal) Q (ix1 n)) (val_main_v10 (F := Ideal) Q (ix1 n))

/-- Entry 0: 1 - 2 (y y + z z). -/
theorem v24_at (Q : SQ.Idx → EReal) (n : Fin 4000000) : val_main_v24 (F := Ideal) Q (ix1 n) = rotOf Q n 0 := by
  rw [val_main_v24_apply, val_main_v23_apply, val_main_v22_apply, val_main_v21_apply, val_main_v20_apply,
    val_main_v12_apply, val_main_v13_apply, val_main_cst_0_apply, val_main_cst_apply]
  simp only [Ideal.mulf_def, Ideal.addf_def, Ideal.subf_def, Ideal.ofBits_def]
  exact (rot_0 _ _ _ _).symm

/-- Entry 1: 2 (x y - w z). -/
theorem v27_at (Q : SQ.Idx → EReal) (n : Fin 4000000) : val_main_v27 (F := Ideal) Q (ix1 n) = rotOf Q n 1 := by
  rw [val_main_v27_apply, val_main_v26_apply, val_main_v25_apply, val_main_v14_apply, val_main_v19_apply,
    val_main_cst_1_apply]
  simp only [Ideal.mulf_def, Ideal.addf_def, Ideal.subf_def, Ideal.ofBits_def]
  exact (rot_1 _ _ _ _).symm

/-- Entry 2: 2 (x z + w y). -/
theorem v30_at (Q : SQ.Idx → EReal) (n : Fin 4000000) : val_main_v30 (F := Ideal) Q (ix1 n) = rotOf Q n 2 := by
  rw [val_main_v30_apply, val_main_v29_apply, val_main_v28_apply, val_main_v15_apply, val_main_v18_apply,
    val_main_cst_2_apply]
  simp only [Ideal.mulf_def, Ideal.addf_def, Ideal.subf_def, Ideal.ofBits_def]
  exact (rot_2 _ _ _ _).symm

/-- Entry 3: 2 (x y + w z). -/
theorem v33_at (Q : SQ.Idx → EReal) (n : Fin 4000000) : val_main_v33 (F := Ideal) Q (ix1 n) = rotOf Q n 3 := by
  rw [val_main_v33_apply, val_main_v32_apply, val_main_v31_apply, val_main_v14_apply, val_main_v19_apply,
    val_main_cst_3_apply]
  simp only [Ideal.mulf_def, Ideal.addf_def, Ideal.subf_def, Ideal.ofBits_def]
  exact (rot_3 _ _ _ _).symm

/-- Entry 4: 1 - 2 (x x + z z). -/
theorem v38_at (Q : SQ.Idx → EReal) (n : Fin 4000000) : val_main_v38 (F := Ideal) Q (ix1 n) = rotOf Q n 4 := by
  rw [val_main_v38_apply, val_main_v37_apply, val_main_v36_apply, val_main_v35_apply, val_main_v34_apply,
    val_main_v11_apply, val_main_v13_apply, val_main_cst_5_apply, val_main_cst_4_apply]
  simp only [Ideal.mulf_def, Ideal.addf_def, Ideal.subf_def, Ideal.ofBits_def]
  exact (rot_4 _ _ _ _).symm

/-- Entry 5: 2 (y z - w x). -/
theorem v41_at (Q : SQ.Idx → EReal) (n : Fin 4000000) : val_main_v41 (F := Ideal) Q (ix1 n) = rotOf Q n 5 := by
  rw [val_main_v41_apply, val_main_v40_apply, val_main_v39_apply, val_main_v16_apply, val_main_v17_apply,
    val_main_cst_6_apply]
  simp only [Ideal.mulf_def, Ideal.addf_def, Ideal.subf_def, Ideal.ofBits_def]
  exact (rot_5 _ _ _ _).symm

/-- Entry 6: 2 (x z - w y). -/
theorem v44_at (Q : SQ.Idx → EReal) (n : Fin 4000000) : val_main_v44 (F := Ideal) Q (ix1 n) = rotOf Q n 6 := by
  rw [val_main_v44_apply, val_main_v43_apply, val_main_v42_apply, val_main_v15_apply, val_main_v18_apply,
    val_main_cst_7_apply]
  simp only [Ideal.mulf_def, Ideal.addf_def, Ideal.subf_def, Ideal.ofBits_def]
  exact (rot_6 _ _ _ _).symm

/-- Entry 7: 2 (y z + w x). -/
theorem v47_at (Q : SQ.Idx → EReal) (n : Fin 4000000) : val_main_v47 (F := Ideal) Q (ix1 n) = rotOf Q n 7 := by
  rw [val_main_v47_apply, val_main_v46_apply, val_main_v45_apply, val_main_v16_apply, val_main_v17_apply,
    val_main_cst_8_apply]
  simp only [Ideal.mulf_def, Ideal.addf_def, Ideal.subf_def, Ideal.ofBits_def]
  exact (rot_7 _ _ _ _).symm

/-- Entry 8: 1 - 2 (x x + y y). -/
theorem v52_at (Q : SQ.Idx → EReal) (n : Fin 4000000) : val_main_v52 (F := Ideal) Q (ix1 n) = rotOf Q n 8 := by
  rw [val_main_v52_apply, val_main_v51_apply, val_main_v50_apply, val_main_v49_apply, val_main_v48_apply,
    val_main_v11_apply, val_main_v12_apply, val_main_cst_10_apply, val_main_cst_9_apply]
  simp only [Ideal.mulf_def, Ideal.addf_def, Ideal.subf_def, Ideal.ofBits_def]
  exact (rot_8 _ _ _ _).symm

/-! ## The nine vectors as [N, 1] columns -/

theorem v53_at (Q : SQ.Idx → EReal) (n : Fin 4000000) :
    val_main_v53 (F := Ideal) Q (ix2 n (0 : Fin 1)) = rotOf Q n 0 := by
  have e : idx_main_v53 (ix2 n (0 : Fin 1)) = ix1 n := funext fun a => Fin.ext (by match a with | ⟨0, _⟩ => rfl)
  rw [val_main_v53_apply, e, v24_at]

theorem v54_at (Q : SQ.Idx → EReal) (n : Fin 4000000) :
    val_main_v54 (F := Ideal) Q (ix2 n (0 : Fin 1)) = rotOf Q n 1 := by
  have e : idx_main_v54 (ix2 n (0 : Fin 1)) = ix1 n := funext fun a => Fin.ext (by match a with | ⟨0, _⟩ => rfl)
  rw [val_main_v54_apply, e, v27_at]

theorem v55_at (Q : SQ.Idx → EReal) (n : Fin 4000000) :
    val_main_v55 (F := Ideal) Q (ix2 n (0 : Fin 1)) = rotOf Q n 2 := by
  have e : idx_main_v55 (ix2 n (0 : Fin 1)) = ix1 n := funext fun a => Fin.ext (by match a with | ⟨0, _⟩ => rfl)
  rw [val_main_v55_apply, e, v30_at]

theorem v56_at (Q : SQ.Idx → EReal) (n : Fin 4000000) :
    val_main_v56 (F := Ideal) Q (ix2 n (0 : Fin 1)) = rotOf Q n 3 := by
  have e : idx_main_v56 (ix2 n (0 : Fin 1)) = ix1 n := funext fun a => Fin.ext (by match a with | ⟨0, _⟩ => rfl)
  rw [val_main_v56_apply, e, v33_at]

theorem v57_at (Q : SQ.Idx → EReal) (n : Fin 4000000) :
    val_main_v57 (F := Ideal) Q (ix2 n (0 : Fin 1)) = rotOf Q n 4 := by
  have e : idx_main_v57 (ix2 n (0 : Fin 1)) = ix1 n := funext fun a => Fin.ext (by match a with | ⟨0, _⟩ => rfl)
  rw [val_main_v57_apply, e, v38_at]

theorem v58_at (Q : SQ.Idx → EReal) (n : Fin 4000000) :
    val_main_v58 (F := Ideal) Q (ix2 n (0 : Fin 1)) = rotOf Q n 5 := by
  have e : idx_main_v58 (ix2 n (0 : Fin 1)) = ix1 n := funext fun a => Fin.ext (by match a with | ⟨0, _⟩ => rfl)
  rw [val_main_v58_apply, e, v41_at]

theorem v59_at (Q : SQ.Idx → EReal) (n : Fin 4000000) :
    val_main_v59 (F := Ideal) Q (ix2 n (0 : Fin 1)) = rotOf Q n 6 := by
  have e : idx_main_v59 (ix2 n (0 : Fin 1)) = ix1 n := funext fun a => Fin.ext (by match a with | ⟨0, _⟩ => rfl)
  rw [val_main_v59_apply, e, v44_at]

theorem v60_at (Q : SQ.Idx → EReal) (n : Fin 4000000) :
    val_main_v60 (F := Ideal) Q (ix2 n (0 : Fin 1)) = rotOf Q n 7 := by
  have e : idx_main_v60 (ix2 n (0 : Fin 1)) = ix1 n := funext fun a => Fin.ext (by match a with | ⟨0, _⟩ => rfl)
  rw [val_main_v60_apply, e, v47_at]

theorem v61_at (Q : SQ.Idx → EReal) (n : Fin 4000000) :
    val_main_v61 (F := Ideal) Q (ix2 n (0 : Fin 1)) = rotOf Q n 8 := by
  have e : idx_main_v61 (ix2 n (0 : Fin 1)) = ix1 n := funext fun a => Fin.ext (by match a with | ⟨0, _⟩ => rfl)
  rw [val_main_v61_apply, e, v52_at]

/-! ## The nine columns joined: entry (n, c) of the [N, 9] array is rotation entry c

Each piece has extent one along the joined axis, so column c lies in piece c, after c pieces of extent one,
at offset zero inside it. -/

theorem v62_at0 (Q : SQ.Idx → EReal) (n : Fin 4000000) :
    val_main_v62 (F := Ideal) Q (ix2 n (0 : Fin 9)) = rotOf Q n 0 := by
  rw [← v53_at]
  unfold val_main_v62
  refine concatenate_apply_piece (1 : Fin S4000000x9.rank) _ _ (ix2 n (0 : Fin 9)) 0 ?_ S4000000x1
    (val_main_v53 (F := Ideal) Q) ?_ (rfl : S4000000x1.rank = S4000000x9.rank) 0 ?_ (ix2 n (0 : Fin 1)) ?_ ?_
  · show 0 < 9; omega
  · rfl
  · rfl
  · intro b hb
    match b with
    | ⟨0, _⟩ => rfl
    | ⟨1, _⟩ => exact absurd rfl hb
  · rfl

theorem v62_at1 (Q : SQ.Idx → EReal) (n : Fin 4000000) :
    val_main_v62 (F := Ideal) Q (ix2 n (1 : Fin 9)) = rotOf Q n 1 := by
  rw [← v54_at]
  unfold val_main_v62
  refine concatenate_apply_piece (1 : Fin S4000000x9.rank) _ _ (ix2 n (1 : Fin 9)) 1 ?_ S4000000x1
    (val_main_v54 (F := Ideal) Q) ?_ (rfl : S4000000x1.rank = S4000000x9.rank) 1 ?_ (ix2 n (0 : Fin 1)) ?_ ?_
  · show 1 < 9; omega
  · rfl
  · rfl
  · intro b hb
    match b with
    | ⟨0, _⟩ => rfl
    | ⟨1, _⟩ => exact absurd rfl hb
  · rfl

theorem v62_at2 (Q : SQ.Idx → EReal) (n : Fin 4000000) :
    val_main_v62 (F := Ideal) Q (ix2 n (2 : Fin 9)) = rotOf Q n 2 := by
  rw [← v55_at]
  unfold val_main_v62
  refine concatenate_apply_piece (1 : Fin S4000000x9.rank) _ _ (ix2 n (2 : Fin 9)) 2 ?_ S4000000x1
    (val_main_v55 (F := Ideal) Q) ?_ (rfl : S4000000x1.rank = S4000000x9.rank) 2 ?_ (ix2 n (0 : Fin 1)) ?_ ?_
  · show 2 < 9; omega
  · rfl
  · rfl
  · intro b hb
    match b with
    | ⟨0, _⟩ => rfl
    | ⟨1, _⟩ => exact absurd rfl hb
  · rfl

theorem v62_at3 (Q : SQ.Idx → EReal) (n : Fin 4000000) :
    val_main_v62 (F := Ideal) Q (ix2 n (3 : Fin 9)) = rotOf Q n 3 := by
  rw [← v56_at]
  unfold val_main_v62
  refine concatenate_apply_piece (1 : Fin S4000000x9.rank) _ _ (ix2 n (3 : Fin 9)) 3 ?_ S4000000x1
    (val_main_v56 (F := Ideal) Q) ?_ (rfl : S4000000x1.rank = S4000000x9.rank) 3 ?_ (ix2 n (0 : Fin 1)) ?_ ?_
  · show 3 < 9; omega
  · rfl
  · rfl
  · intro b hb
    match b with
    | ⟨0, _⟩ => rfl
    | ⟨1, _⟩ => exact absurd rfl hb
  · rfl

theorem v62_at4 (Q : SQ.Idx → EReal) (n : Fin 4000000) :
    val_main_v62 (F := Ideal) Q (ix2 n (4 : Fin 9)) = rotOf Q n 4 := by
  rw [← v57_at]
  unfold val_main_v62
  refine concatenate_apply_piece (1 : Fin S4000000x9.rank) _ _ (ix2 n (4 : Fin 9)) 4 ?_ S4000000x1
    (val_main_v57 (F := Ideal) Q) ?_ (rfl : S4000000x1.rank = S4000000x9.rank) 4 ?_ (ix2 n (0 : Fin 1)) ?_ ?_
  · show 4 < 9; omega
  · rfl
  · rfl
  · intro b hb
    match b with
    | ⟨0, _⟩ => rfl
    | ⟨1, _⟩ => exact absurd rfl hb
  · rfl

theorem v62_at5 (Q : SQ.Idx → EReal) (n : Fin 4000000) :
    val_main_v62 (F := Ideal) Q (ix2 n (5 : Fin 9)) = rotOf Q n 5 := by
  rw [← v58_at]
  unfold val_main_v62
  refine concatenate_apply_piece (1 : Fin S4000000x9.rank) _ _ (ix2 n (5 : Fin 9)) 5 ?_ S4000000x1
    (val_main_v58 (F := Ideal) Q) ?_ (rfl : S4000000x1.rank = S4000000x9.rank) 5 ?_ (ix2 n (0 : Fin 1)) ?_ ?_
  · show 5 < 9; omega
  · rfl
  · rfl
  · intro b hb
    match b with
    | ⟨0, _⟩ => rfl
    | ⟨1, _⟩ => exact absurd rfl hb
  · rfl

theorem v62_at6 (Q : SQ.Idx → EReal) (n : Fin 4000000) :
    val_main_v62 (F := Ideal) Q (ix2 n (6 : Fin 9)) = rotOf Q n 6 := by
  rw [← v59_at]
  unfold val_main_v62
  refine concatenate_apply_piece (1 : Fin S4000000x9.rank) _ _ (ix2 n (6 : Fin 9)) 6 ?_ S4000000x1
    (val_main_v59 (F := Ideal) Q) ?_ (rfl : S4000000x1.rank = S4000000x9.rank) 6 ?_ (ix2 n (0 : Fin 1)) ?_ ?_
  · show 6 < 9; omega
  · rfl
  · rfl
  · intro b hb
    match b with
    | ⟨0, _⟩ => rfl
    | ⟨1, _⟩ => exact absurd rfl hb
  · rfl

theorem v62_at7 (Q : SQ.Idx → EReal) (n : Fin 4000000) :
    val_main_v62 (F := Ideal) Q (ix2 n (7 : Fin 9)) = rotOf Q n 7 := by
  rw [← v60_at]
  unfold val_main_v62
  refine concatenate_apply_piece (1 : Fin S4000000x9.rank) _ _ (ix2 n (7 : Fin 9)) 7 ?_ S4000000x1
    (val_main_v60 (F := Ideal) Q) ?_ (rfl : S4000000x1.rank = S4000000x9.rank) 7 ?_ (ix2 n (0 : Fin 1)) ?_ ?_
  · show 7 < 9; omega
  · rfl
  · rfl
  · intro b hb
    match b with
    | ⟨0, _⟩ => rfl
    | ⟨1, _⟩ => exact absurd rfl hb
  · rfl

theorem v62_at8 (Q : SQ.Idx → EReal) (n : Fin 4000000) :
    val_main_v62 (F := Ideal) Q (ix2 n (8 : Fin 9)) = rotOf Q n 8 := by
  rw [← v61_at]
  unfold val_main_v62
  refine concatenate_apply_piece (1 : Fin S4000000x9.rank) _ _ (ix2 n (8 : Fin 9)) 8 ?_ S4000000x1
    (val_main_v61 (F := Ideal) Q) ?_ (rfl : S4000000x1.rank = S4000000x9.rank) 8 ?_ (ix2 n (0 : Fin 1)) ?_ ?_
  · show 8 < 9; omega
  · rfl
  · rfl
  · intro b hb
    match b with
    | ⟨0, _⟩ => rfl
    | ⟨1, _⟩ => exact absurd rfl hb
  · rfl

/-- Entry (n, c) of the joined array is rotation entry c, for each of the nine columns. -/
theorem v62_at (Q : SQ.Idx → EReal) (n : Fin 4000000) (c : Fin 9) :
    val_main_v62 (F := Ideal) Q (ix2 n c) = rotOf Q n c := by
  match c with
  | ⟨0, _⟩ => exact v62_at0 Q n
  | ⟨1, _⟩ => exact v62_at1 Q n
  | ⟨2, _⟩ => exact v62_at2 Q n
  | ⟨3, _⟩ => exact v62_at3 Q n
  | ⟨4, _⟩ => exact v62_at4 Q n
  | ⟨5, _⟩ => exact v62_at5 Q n
  | ⟨6, _⟩ => exact v62_at6 Q n
  | ⟨7, _⟩ => exact v62_at7 Q n
  | ⟨8, _⟩ => exact v62_at8 Q n

/-! ## Reshaped to [N, 3, 3], scaled by the exponentials, and contracted -/

/-- Entry (n, i, j) of the [N, 3, 3] array is column 3 i + j of the [N, 9] array. -/
theorem v63_at (Q : SQ.Idx → EReal) (n : Fin 4000000) (i j : Fin 3) :
    val_main_v63 (F := Ideal) Q (ix3 n i j) = rotOf Q n (flat i j) := by
  have hi := i.isLt
  have hj := j.isLt
  have e : idx_main_v63 (ix3 n i j) = ix2 n (flat i j) := funext fun a => Fin.ext (by
    match a with
    | ⟨0, _⟩ => show ((n.val * 3 + i.val) * 3 + j.val) / 9 = n.val; omega
    | ⟨1, _⟩ => show ((n.val * 3 + i.val) * 3 + j.val) % 9 = 3 * i.val + j.val; omega)
  rw [val_main_v63_apply, e, v62_at]

/-- The scale array: entry (n, i, j) is e^{s_j}, whatever the row i. -/
theorem v66_at (S : SS.Idx → EReal) (n : Fin 4000000) (i j : Fin 3) :
    val_main_v66 (F := Ideal) S (ix3 n i j) = Ideal.exp (S (ix2 n j)) := by
  have e : idx_main_v65 (idx_main_v66 (ix3 n i j)) = ix2 n j :=
    funext fun a => Fin.ext (by match a with | ⟨0, _⟩ => rfl | ⟨1, _⟩ => rfl)
  rw [val_main_v66_apply, val_main_v65_apply, val_main_v64_apply, e, Ideal.hostUnary_exp_def]

/-- The scaled rotation: entry (n, i, j) is R_ij e^{s_j}. -/
theorem v67_at (Q : SQ.Idx → EReal) (S : SS.Idx → EReal) (n : Fin 4000000) (i j : Fin 3) :
    val_main_v67 (F := Ideal) Q S (ix3 n i j) = rotOf Q n (flat i j) * Ideal.exp (S (ix2 n j)) := by
  rw [val_main_v67_apply, Ideal.mulf_def, v63_at, v66_at]

/-- The contraction: entry (n, i, k) is the sum over j of (R_ij e^{s_j}) (R_kj e^{s_j}). -/
theorem v68_at (Q : SQ.Idx → EReal) (S : SS.Idx → EReal) (n : Fin 4000000) (i k : Fin 3) :
    val_main_v68 (F := Ideal) Q S (ix3 n i k) =
      ∑ j : Fin 3, (rotOf Q n (flat i j) * Ideal.exp (S (ix2 n j))) * (rotOf Q n (flat k j) * Ideal.exp (S (ix2 n j))) := by
  have el : ∀ j : Fin 3, lidx_main_v68 (ix3 n i k) j = ix3 n i j := fun j =>
    funext fun a => Fin.ext (by match a with | ⟨0, _⟩ => rfl | ⟨1, _⟩ => rfl | ⟨2, _⟩ => rfl)
  have er : ∀ j : Fin 3, ridx_main_v68 (ix3 n i k) j = ix3 n k j := fun j =>
    funext fun a => Fin.ext (by match a with | ⟨0, _⟩ => rfl | ⟨1, _⟩ => rfl | ⟨2, _⟩ => rfl)
  rw [val_main_v68_apply]
  simp only [el, er, v67_at]

/-! ## The result -/

/-- The rotation matrix from the column buffers is the rotation matrix of the reference's unit quaternion. -/
theorem rotOf_eq (Q : SQ.Idx → EReal) (n : Fin 4000000) :
    rotOf Q n = rot (unitR (quat Q n) 0) (unitR (quat Q n) 1) (unitR (quat Q n) 2) (unitR (quat Q n) 3) := by
  show rot _ _ _ _ = _
  rw [v4_at, v6_at, v8_at, v10_at, v2_at, v2_at, v2_at, v2_at]

/-- The reference's result is the covariance array, the reference's way. -/
theorem val_eq (Q : SQ.Idx → EReal) (S : SS.Idx → EReal) :
    val_main_v68 (F := Ideal) Q S = sigmaAllR Q S := by
  funext idx
  obtain ⟨n, i, k, rfl⟩ : ∃ (n : Fin 4000000) (i k : Fin 3), idx = ix3 n i k := ⟨idx 0, idx 1, idx 2, eq_ix3 idx⟩
  rw [v68_at, rotOf_eq]
  rfl

end Cert.ReferenceValue

end
-- ==== Proof.lean ====
/-
  The certificate's claim: the Pallas kernel computing, for four million Gaussians, the covariance
  Σ = (R · diag eˢ)(R · diag eˢ)ᵀ of a unit quaternion's rotation R and log-scales s, against its jnp reference.

  Stated under the precondition that every input is finite AND every quaternion has positive squared length: at a
  zero quaternion the reference divides 0 by 0, and over the extended reals its junk value ⊥ and the kernel's
  0 · rsqrt 0 = 0 · ⊤ = 0 lead to different covariances, so without that conjunct the value claim is false.

  The three frames: the kernel's two are the generated class-A frames; the reference has no kernel, and its frame is its
  generated run with the result dropped. The idealization rewrote nothing, so `preserves` is trivial.
  The value claim: the kernel's run ends at `sigmaAll` of the inputs (Proof/KernelRun.lean, over Proof/KernelArray.lean and
  Proof/KernelBlock.lean); the reference's run ends at `sigmaAllR` of the inputs (Proof/ReferenceValue.lean, over the
  generated read of its 85 operations); the precondition says every quaternion entry is real and every squared length
  positive (Proof/PreRows.lean); and under that the two arrays are equal (Proof/Covariance.lean: q · rsqrt |q|² = q / sqrt |q|²
  for real q ≠ 0, and (a e)(b e) = (a b) e² with e^s e^s = e^{2 s}).
-/
import proofs.«100567_j54975581389340_1_alg».proof.Defs
import proofs.«100567_j54975581389340_1_alg».proof.Proof.Gen.Kernel
import proofs.«100567_j54975581389340_1_alg».proof.Proof.Gen.Kernel.Skeleton
import proofs.«100567_j54975581389340_1_alg».proof.Proof.Gen.Kernel.Launch
import proofs.«100567_j54975581389340_1_alg».proof.Proof.Gen.Kernel.Points
import proofs.«100567_j54975581389340_1_alg».proof.Proof.Gen.Kernel.Frame
import proofs.«100567_j54975581389340_1_alg».proof.Proof.Gen.KernelIdeal
import proofs.«100567_j54975581389340_1_alg».proof.Proof.Gen.KernelIdeal.Skeleton
import proofs.«100567_j54975581389340_1_alg».proof.Proof.Gen.KernelIdeal.Launch
import proofs.«100567_j54975581389340_1_alg».proof.Proof.Gen.KernelIdeal.Points
import proofs.«100567_j54975581389340_1_alg».proof.Proof.Gen.KernelIdeal.Frame
import proofs.«100567_j54975581389340_1_alg».proof.Proof.Gen.ReferenceIdeal
import proofs.«100567_j54975581389340_1_alg».proof.Proof.Gen.Pre_finite_inputs
import proofs.«100567_j54975581389340_1_alg».proof.Proof.Gen.ReferenceIdeal.Run
import proofs.«100567_j54975581389340_1_alg».proof.Proof.Gen.ReferenceIdeal.Read
import proofs.«100567_j54975581389340_1_alg».proof.Proof.Covariance
import proofs.«100567_j54975581389340_1_alg».proof.Proof.PreRows
import proofs.«100567_j54975581389340_1_alg».proof.Proof.KernelRun
import proofs.«100567_j54975581389340_1_alg».proof.Proof.ReferenceValue
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same covariances: the kernel's run ends at `sigmaAll` of its inputs, the
    reference's at `sigmaAllR` of inputs that agree with them, and the precondition makes the two arrays equal. -/
theorem algebraic : Cert.algebraic_KernelIdeal_ReferenceIdeal := by
  intro m ρ m' ρ' hpre hagree
  refine ⟨fun c => Cert.Covariance.sigmaAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hpos⟩ := Cert.PreRows.rows_of_pre _ _ (hpre c)
  rw [Cert.ReferenceIdeal.Read.val_main_v68_eq, Cert.ReferenceValue.val_eq, (hagree c).1, (hagree c).2]
  exact Cert.Covariance.sigmaAllR_eq_sigmaAll _ _ hQ hpos

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
